-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256 .f32) (main_arg2 : IVec S4096x4096 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S8192x4096, .f32⟩
  | .hbm, ⟨16, _⟩ => ⟨S8192x4096, .bf16⟩
  | .hbm, ⟨17, _⟩ => ⟨S1x4096, .f32⟩
  | .hbm, ⟨18, _⟩ => ⟨S8192x4096, .f32⟩
  | .hbm, ⟨19, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point of the matmul-with-bias kernel leaves behind, as values.

  The body adds the product of its two input blocks to the accumulator it carries in scratch memory; at the first
  point of a run of four (k = 0) it first stores zeros there, and at the last (k = 3) it also stores the accumulator
  plus the bias row into the output block. So whatever the case, the accumulator ends at  acc + A·B  (with acc the
  zero block at k = 0), and at k = 3 the output block ends at  (acc + A·B) + bias.
-/
import proofs.«145189_j51264729645537_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- k = 0: the accumulator is reset to the zero block, read back, and ends at  0 + A·B. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- k = 1, 2: the accumulator the point before left, plus A·B. -/
theorem acc_middle (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- k = 3: the accumulator again ends at  acc + A·B … -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- … and the output block at that accumulator plus the bias row. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Pieces

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.Layer.lean ====
/-
  A linear layer over a palettized weight matrix, as one function of its arrays.

  The layer's output at (row r, feature o) is the inner product of row r of the activations X with row o of the
  dequantized weights, plus the bias at o:  Y(r, o) = Σ_d X(r, d) · Wt(d, o) + b(o),  where Wt is the weight matrix
  laid out with the contracted coordinate first.

  A kernel that walks the contracted coordinate in four blocks of 1024 adds the blocks' inner products one after
  the other. Addition on the extended reals is commutative and associative, so the four block sums together are the
  one sum over all 4096 coordinates: no finiteness of the entries is needed.
-/
import Idealize.ShloMosaic.PureOps.Ideal.Laws
import Idealize.ShloMosaic.Lib.ValueIdx
import proofs.«145189_j51264729645537_1_alg».proof.Proof.LibBlockSums

noncomputable section

namespace Cert.PaletteLinear

open Idealize.ShloMosaic Idealize.ShloMosaic.ValueIdx Finset

/-- The activations as a matrix of 8192 rows, the weights with the contracted coordinate first, the bias as one row. -/
abbrev Acts := (⟨2, ![8192, 4096]⟩ : Shape).Idx → EReal
abbrev Wts := (⟨2, ![4096, 4096]⟩ : Shape).Idx → EReal
abbrev BiasRow := (⟨2, ![1, 4096]⟩ : Shape).Idx → EReal

/-- The product X(r, d) · Wt(d, o) as a function of a natural number d, zero from 4096 on. -/
def term (X : Acts) (Wt : Wts) (r : Fin 8192) (o : Fin 4096) (d : ℕ) : EReal :=
  if h : d < 4096 then X (ix2 r ⟨d, h⟩) * Wt (ix2 ⟨d, h⟩ o) else 0

theorem term_of_lt (X : Acts) (Wt : Wts) (r : Fin 8192) (o : Fin 4096) (d : ℕ) (h : d < 4096) :
    term X Wt r o d = X (ix2 r ⟨d, h⟩) * Wt (ix2 ⟨d, h⟩ o) := dif_pos h

/-- The inner product of row r with column o restricted to the first k + 1 blocks of 1024 coordinates. -/
def partialDot (X : Acts) (Wt : Wts) (r : Fin 8192) (o : Fin 4096) (k : ℕ) : EReal :=
  ∑ kb ∈ range (k + 1), ∑ l : Fin 1024, term X Wt r o (1024 * kb + l.val)

/-- The first block alone. -/
theorem partialDot_zero (X : Acts) (Wt : Wts) (r : Fin 8192) (o : Fin 4096) :
    partialDot X Wt r o 0 = ∑ l : Fin 1024, term X Wt r o (1024 * 0 + l.val) := by
  unfold partialDot
  rw [sum_range_one]

/-- One more block: the blocks before it, plus its own inner product. -/
theorem partialDot_succ (X : Acts) (Wt : Wts) (r : Fin 8192) (o : Fin 4096) (k : ℕ) :
    partialDot X Wt r o (k + 1) = partialDot X Wt r o k + ∑ l : Fin 1024, term X Wt r o (1024 * (k + 1) + l.val) := by
  unfold partialDot
  rw [sum_range_succ]

/-- All four blocks: the whole inner product. -/
theorem partialDot_three (X : Acts) (Wt : Wts) (r : Fin 8192) (o : Fin 4096) :
    partialDot X Wt r o 3 = ∑ d : Fin 4096, X (ix2 r d) * Wt (ix2 d o) := by
  unfold partialDot
  rw [BlockSums.sum_blocks (term X Wt r o) 1024 4, ← Fin.sum_univ_eq_sum_range (term X Wt r o) (4 * 1024)]
  exact Fintype.sum_congr _ _ fun d => term_of_lt X Wt r o d.val d.isLt

/-- The layer on the matrix of 8192 rows. -/
def layer (X : Acts) (Wt : Wts) (b : BiasRow) : (⟨2, ![8192, 4096]⟩ : Shape).Idx → EReal :=
  fun j => (∑ d : Fin 4096, X (ix2 (j 0) d) * Wt (ix2 d (j 1))) + b (ix2 0 (j 1))

theorem layer_apply (X : Acts) (Wt : Wts) (b : BiasRow) (r : Fin 8192) (o : Fin 4096) :
    layer X Wt b (ix2 r o) = (∑ d : Fin 4096, X (ix2 r d) * Wt (ix2 d o)) + b (ix2 0 o) := rfl

/-- The layer on the activations as given, batch × sequence × features, over the weights W(o, d) with the output
    feature first and a bias vector:  Y(b, s, o) = Σ_d x(b, s, d) · W(o, d) + bias(o). -/
def dense (x : (⟨3, ![4, 2048, 4096]⟩ : Shape).Idx → EReal) (W : (⟨2, ![4096, 4096]⟩ : Shape).Idx → EReal)
    (bias : (⟨1, ![4096]⟩ : Shape).Idx → EReal) : (⟨3, ![4, 2048, 4096]⟩ : Shape).Idx → EReal :=
  fun i => (∑ d : Fin 4096, x (ix3 (i 0) (i 1) d) * W (ix2 (i 2) d)) + bias (ix1 (i 2))

theorem dense_apply (x : (⟨3, ![4, 2048, 4096]⟩ : Shape).Idx → EReal) (W : (⟨2, ![4096, 4096]⟩ : Shape).Idx → EReal)
    (bias : (⟨1, ![4096]⟩ : Shape).Idx → EReal) (b : Fin 4) (s : Fin 2048) (o : Fin 4096) :
    dense x W bias (ix3 b s o) = (∑ d : Fin 4096, x (ix3 b s d) * W (ix2 o d)) + bias (ix1 o) := rfl

end Cert.PaletteLinear

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Accum.lean ====
/-
  The accumulator across the grid.

  The grid is 8 × 4 × 4: point n has row block n / 16, column block (n / 4) mod 4 and contraction block k = n mod 4,
  and the points run with k fastest. The activations' window reads block (row block, k) of X, the weights' window block
  (k, column block) of Wt, the bias window block (0, column block) of the bias row, and the output window writes block
  (row block, column block).

  At entry (p, q) of its block, the accumulator after point n holds the inner product of row  (row block)·1024 + p
  of X with column  (column block)·1024 + q  of Wt over the first k + 1 blocks of the contracted coordinate: the reset
  at k = 0 starts it at zero, and each point adds its own block's inner product to what the point before left. Row
  block and column block do not change while k runs from 0 to 3, which is what lets the induction go through.
-/
import proofs.«145189_j51264729645537_1_alg».proof.Proof.Pieces
import proofs.«145189_j51264729645537_1_alg».proof.Proof.Layer
import proofs.«145189_j51264729645537_1_alg».proof.Proof.LibDenseLayer

noncomputable section

open Idealize.ShloMosaic Idealize.ShloMosaic.TcCoe Idealize.SL.Sem Idealize.ShloMosaic.ValueIdx

namespace Cert.KernelIdeal.Accum

open Cert.KernelIdeal Cert.KernelIdeal.Gen Cert.PaletteLinear

variable (m : (ℓ : Loc nD τ sig) → Buf (Elt Ideal) ℓ)

/-- The three arrays the kernel reads, as the region finds them. -/
abbrev X (c : Dev nD) : Acts := V m c main_v10
abbrev Wt (c : Dev nD) : Wts := V m c main_v8
abbrev Bv (c : Dev nD) : BiasRow := V m c main_v11

/-- Their blocks at grid point t. -/
abbrev ablk (c : Dev nD) (t : Fin cfg0.N) : Vec Ideal S1024x1024 .bf16 := iblk m c 0 t
abbrev bblk (c : Dev nD) (t : Fin cfg0.N) : Vec Ideal S1024x1024 .bf16 := iblk m c 1 t
abbrev biasblk (c : Dev nD) (t : Fin cfg0.N) : Vec Ideal S1x1024 .f32 := iblk m c 2 t

/-- The block index of each window at point t, from t's position in the grid. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry (p, l) of the activations' block at t is X at (row block · 1024 + p, k · 1024 + l). -/
theorem ablk_apply (c : Dev nD) (t : Fin cfg0.N) (p l : Fin 1024) (r : Fin 8192) (d : Fin 4096)
    (hr : r.val = t.val / 16 * 1024 + p.val) (hd : d.val = t.val % 4 * 1024 + l.val) :
    ablk m c t (ix2 p l) = X m c (ix2 r d) := by
  show V m c main_v10 (((cfg0.win 0).blk t).view.emb (ix2 p l)) = V m c main_v10 (ix2 r d)
  obtain ⟨e0, e1, -⟩ := idx_facts t
  refine congrArg (V m c main_v10) (funext fun a => Fin.ext ?_)
  match a with
  | ⟨0, _⟩ => show win0_0.index t (0 : Fin 2) * 1024 + 1 * p.val = r.val; omega
  | ⟨1, _⟩ => show win0_0.index t (1 : Fin 2) * 1024 + 1 * l.val = d.val; omega

/-- Entry (l, q) of the weights' block at t is Wt at (k · 1024 + l, column block · 1024 + q). -/
theorem bblk_apply (c : Dev nD) (t : Fin cfg0.N) (l q : Fin 1024) (d o : Fin 4096)
    (hd : d.val = t.val % 4 * 1024 + l.val) (ho : o.val = t.val / 4 % 4 * 1024 + q.val) :
    bblk m c t (ix2 l q) = Wt m c (ix2 d o) := by
  show V m c main_v8 (((cfg0.win 1).blk t).view.emb (ix2 l q)) = V m c main_v8 (ix2 d o)
  obtain ⟨-, -, e2, e3, -⟩ := idx_facts t
  refine congrArg (V m c main_v8) (funext fun a => Fin.ext ?_)
  match a with
  | ⟨0, _⟩ => show win0_1.index t (0 : Fin 2) * 1024 + 1 * l.val = d.val; omega
  | ⟨1, _⟩ => show win0_1.index t (1 : Fin 2) * 1024 + 1 * q.val = o.val; omega

/-- Entry (0, q) of the bias block at t is the bias row at column block · 1024 + q. -/
theorem biasblk_apply (c : Dev nD) (t : Fin cfg0.N) (q : Fin 1024) (o : Fin 4096)
    (ho : o.val = t.val / 4 % 4 * 1024 + q.val) :
    biasblk m c t (ix2 (0 : Fin 1) q) = Bv m c (ix2 (0 : Fin 1) o) := by
  show V m c main_v11 (((cfg0.win 2).blk t).view.emb (ix2 (0 : Fin 1) q)) = V m c main_v11 (ix2 (0 : Fin 1) o)
  obtain ⟨-, -, -, -, e4, e5, -⟩ := idx_facts t
  refine congrArg (V m c main_v11) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- One accumulation step at an entry: what was there, plus the inner product of row p of A with column q of B. -/
theorem step_apply (acc : Vec Ideal S1024x1024 .f32) (a b : Vec Ideal S1024x1024 .bf16) (p q : Fin 1024) :
    (k0_pay2 acc a b : Vec Ideal S1024x1024 .f32) (ix2 p q) = acc (ix2 p q) + ∑ l : Fin 1024, a (ix2 p l) * b (ix2 l q) := by
  unfold k0_pay2
  simp only [shapeCast_self]
  exact congrArg (acc (ix2 p q) + ·)
    (DenseLayer.matmul_rows_apply (m := 1024) (k := 1024) (n := 1024) Facts₀.dot_S1024x1024_S1024x1024_S1024x1024_1_0_0_1_n_n_wf none a b p q)

/-- The zero block the reset stores reads zero. -/
theorem zero_apply (j : S1024x1024.Idx) : k0_pay1 (F := Ideal) j = 0 := by
  unfold k0_pay1
  simp only [shapeCast_self]
  exact Ideal.ofBits_zero_f32

/-- The inner product of the two blocks at t is block k's share of the whole inner product. -/
theorem block_dot (c : Dev nD) (t : Fin cfg0.N) (p q : Fin 1024) (r : Fin 8192) (o : Fin 4096)
    (hr : r.val = t.val / 16 * 1024 + p.val) (ho : o.val = t.val / 4 % 4 * 1024 + q.val) :
    ∑ l : Fin 1024, ablk m c t (ix2 p l) * bblk m c t (ix2 l q)
      = ∑ l : Fin 1024, term (X m c) (Wt m c) r o (1024 * (t.val % 4) + l.val) := by
  refine Fintype.sum_congr _ _ fun l => ?_
  have hl : l.val < 1024 := l.isLt
  have hd : 1024 * (t.val % 4) + l.val < 4096 := by omega
  rw [term_of_lt _ _ _ _ _ hd,
    ablk_apply m c t p l r ⟨_, hd⟩ hr (by show 1024 * (t.val % 4) + l.val = _; omega),
    bblk_apply m c t l q ⟨_, hd⟩ o (by show 1024 * (t.val % 4) + l.val = _; omega) ho]

/-- THE INVARIANT. After point n the accumulator's entry (p, q) is the inner product over the first n mod 4 + 1
    blocks, for the row and column that entry stands for. -/
theorem acc_eq (c : Dev nD) : ∀ (n : ℕ) (h : n < cfg0.N) (p q : Fin 1024) (r : Fin 8192) (o : Fin 4096),
    r.val = n / 16 * 1024 + p.val → o.val = n / 4 % 4 * 1024 + q.val →
    (outsAt0 m c n h).2 (ix2 p q) = partialDot (X m c) (Wt m c) r o (n % 4)
  | n, h, p, q, r, o, hr, ho => by
    have hN : n < 128 := lt_of_lt_of_eq h (show cfg0.N = 128 from N_0)
    by_cases h0 : n % 4 = 0
    · have h1 : ¬ n % 4 = 3 := by omega
      rw [outsAt0_A m c ⟨n, h⟩ h0 h1]
      dsimp only
      refine (congrFun (Pieces.acc_first (F := Ideal) c (grid0.coords ⟨n, h⟩) (ms0_0 ⟨n, h⟩) (hs0_0 ⟨n, h⟩) (ms0_1 ⟨n, h⟩) (hs0_1 ⟨n, h⟩)
        (ms0_2 ⟨n, h⟩) (hs0_2 ⟨n, h⟩) (ms0_3 ⟨n, h⟩) (hs0_3 ⟨n, h⟩) scM0_0 (Memref.isWhole_whole _) ((hcond0_0 ⟨n, h⟩).mpr h0)
        (fun hh => h1 ((hcond0_1 ⟨n, h⟩).mp hh)) (ablk m c ⟨n, h⟩) (bblk m c ⟨n, h⟩) (biasblk m c ⟨n, h⟩)) (ix2 p q)).trans ?_
      rw [step_apply, zero_apply, zero_add, block_dot m c ⟨n, h⟩ p q r o hr ho, h0, partialDot_zero]
    · have hpos : n ≠ 0 := fun hz => h0 (by rw [hz])
      have ih := acc_eq c (n - 1) (Nat.lt_of_le_of_lt (Nat.sub_le _ _) h) p q r o (by omega) (by omega)
      have hk : n % 4 = (n - 1) % 4 + 1 := by omega
      by_cases h1 : n % 4 = 3
      · rw [outsAt0_C m c ⟨n, h⟩ h0 h1]
        dsimp only
        refine (congrFun (Pieces.acc_last (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh))
          ((hcond0_1 ⟨n, h⟩).mpr h1) (ablk m c ⟨n, h⟩) (bblk m c ⟨n, h⟩) (biasblk m c ⟨n, h⟩)
          (outsAt0 m c (n - 1) (Nat.lt_of_le_of_lt (Nat.sub_le _ _) h)).2) (ix2 p q)).trans ?_
        rw [step_apply, ih, block_dot m c ⟨n, h⟩ p q r o hr ho]
        show _ = partialDot (X m c) (Wt m c) r o (n % 4)
        rw [hk, partialDot_succ]
      · rw [outsAt0_B m c ⟨n, h⟩ h0 h1]
        dsimp only
        refine (congrFun (Pieces.acc_middle (F := Ideal) c (grid0.coords ⟨n, h⟩) (ms0_0 ⟨n, h⟩) (hs0_0 ⟨n, h⟩) (ms0_1 ⟨n, h⟩) (hs0_1 ⟨n, h⟩)
          (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh))
          (fun hh => h1 ((hcond0_1 ⟨n, h⟩).mp hh)) (ablk m c ⟨n, h⟩) (bblk m c ⟨n, h⟩) (biasblk m c ⟨n, h⟩)
          (outsAt0 m c (n - 1) (Nat.lt_of_le_of_lt (Nat.sub_le _ _) h)).2) (ix2 p q)).trans ?_
        rw [step_apply, ih, block_dot m c ⟨n, h⟩ p q r o hr ho]
        show _ = partialDot (X m c) (Wt m c) r o (n % 4)
        rw [hk, partialDot_succ]
termination_by n => n
decreasing_by all_goals omega

end Cert.KernelIdeal.Accum

end
-- ==== Proof.Result.lean ====
/-
  What the kernel's program leaves in its result, at the ideal values.

  At the last of each run of four points (k = 3) the kernel stores the accumulator plus the bias row into the output
  block; by the accumulator's invariant that block's entry (p, q) is the whole inner product of its row of X with its
  column of Wt, plus the bias of that column: block (row block, column block) of the one matrix  layer X Wt bias.
  The 32 such blocks tile the 8192 × 4096 result array, so after the region the array is that matrix.

  Around the region the program only re-lays its arrays: X is the activations reshaped to 8192 rows (the change of
  float format is the identity at the ideal values), Wt is the transpose of the dequantized weights, the bias row is
  the bias vector as one row, and the final result is the matrix reshaped back to batch × sequence × features. Read
  entry by entry, that result is  dense x W bias.
-/
import proofs.«145189_j51264729645537_1_alg».proof.Proof.Accum
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.PaletteLinear Cert.KernelIdeal.Accum

variable (m : (ℓ : Loc nD τ sig) → Buf (Elt Ideal) ℓ) (ρ : Dev nD → PrngReg)

/-! ## The output block at a point that writes it back -/

/-- The store into the output block at an entry: the accumulator there, plus the bias row's entry of that column. -/
theorem bias_step_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  exact congrArg (acc (ix2 p q) + ·) (broadcastTo_1b_ab_apply (a := 1024) (b := 1024) b broadcasts_S1x1024_S1024x1024 p q)

/-- At a point with k = 3 the output block's entry (p, q) is the layer's value at the row and column it stands for. -/
theorem out_apply (c : Dev nD) (t : Fin cfg0.N) (h3 : t.val % 4 = 3) (p q : Fin 1024) (r : Fin 8192) (o : Fin 4096)
    (hr : r.val = t.val / 16 * 1024 + p.val) (ho : o.val = t.val / 4 % 4 * 1024 + q.val) :
    (outsAt0 m c t.val t.isLt).1 (ix2 p q) = layer (X m c) (Wt m c) (Bv m c) (ix2 r o) := by
  have h0 : ¬ t.val % 4 = 0 := by omega
  have hacc := acc_eq m c t.val t.isLt p q r o hr ho
  rw [outsAt0_C m c t h0 h3] at hacc ⊢
  dsimp only at hacc ⊢
  rw [Pieces.acc_last] at hacc
  rw [Pieces.out_last, bias_step_apply, hacc, h3, partialDot_three, layer_apply]
  congr 1
  exact biasblk_apply m c t q o ho

/-- WHAT A WRITING POINT WRITES BACK is its block of the layer's matrix. -/
theorem flushed_eq (c : Dev nD) (t : Fin cfg0.N) (hf : (cfg0.win 3).flush t = true) :
    (dats m 0 c).flushed 3 t = ((cfg0.win 3).blk t).view.read (Elt Ideal) (layer (X m c) (Wt m c) (Bv m c)) := by
  have h3 : t.val % 4 = 3 := (flush0_3 t).mp hf
  have hN : t.val < 128 := lt_of_lt_of_eq t.isLt (show cfg0.N = 128 from N_0)
  obtain ⟨e6, e7⟩ := (idx_facts t).2.2.2.2.2.2
  show (cfg0.win 3).cut (grid0.coords t) ((dats m 0 c).after 3 t) = _
  rw [after0_3]
  funext j
  have hj0 : (j 0).val < 1024 := (j 0).isLt
  have hj1 : (j 1).val < 1024 := (j 1).isLt
  show (outsAt0 m c t.val t.isLt).1 j = layer (X m c) (Wt m c) (Bv m c) (((cfg0.win 3).blk t).view.emb j)
  have key := out_apply m c t h3 ⟨(j 0).val, hj0⟩ ⟨(j 1).val, hj1⟩
    ⟨t.val / 16 * 1024 + (j 0).val, by omega⟩ ⟨t.val / 4 % 4 * 1024 + (j 1).val, by omega⟩ rfl rfl
  refine (congrArg (outsAt0 m c t.val t.isLt).1 ?_).trans (key.trans (congrArg (layer (X m c) (Wt m c) (Bv m c)) ?_))
  · funext a
    match a with
    | ⟨0, _⟩ => rfl
    | ⟨1, _⟩ => rfl
  · funext a
    apply Fin.ext
    match a with
    | ⟨0, _⟩ => show t.val / 16 * 1024 + (j 0).val = win0_3.index t (0 : Fin 2) * 1024 + 1 * (j 0).val; omega
    | ⟨1, _⟩ => show t.val / 4 % 4 * 1024 + (j 1).val = win0_3.index t (1 : Fin 2) * 1024 + 1 * (j 1).val; omega

/-- Every entry of the result array lies in the block of the writing point of its row block and column block. -/
theorem cover (c : Dev nD) (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  have ht : (i 0).val / 1024 * 16 + (i 1).val / 1024 * 4 + 3 < cfg0.N := by rw [hN]; omega
  obtain ⟨e6, e7⟩ := (idx_facts ⟨_, ht⟩).2.2.2.2.2.2
  refine ⟨⟨_, ht⟩, (flush0_3 ⟨_, ht⟩).mpr (by show ((i 0).val / 1024 * 16 + (i 1).val / 1024 * 4 + 3) % 4 = 3; omega), ?_⟩
  show i ∈ ((View.whole main_v12).slice (win0_3.rect ⟨_, ht⟩)).set
  rw [View.set_slice_whole, Rect.mem_set_unit]
  intro a
  match a with
  | ⟨0, _⟩ =>
    show win0_3.index ⟨_, ht⟩ (0 : Fin 2) * 1024 ≤ (i 0).val ∧ (i 0).val < win0_3.index ⟨_, ht⟩ (0 : Fin 2) * 1024 + 1024
    rw [e6]; dsimp only; omega
  | ⟨1, _⟩ =>
    show win0_3.index ⟨_, ht⟩ (1 : Fin 2) * 1024 ≤ (i 1).val ∧ (i 1).val < win0_3.index ⟨_, ht⟩ (1 : Fin 2) * 1024 + 1024
    rw [e7]; dsimp only; omega

/-- THE RESULT ARRAY after the region: the layer's matrix. -/
theorem final (c : Dev nD) : (dats m 0 c).arrAt 3 cfg0.N = layer (X m c) (Wt m c) (Bv m c) :=
  (dats m 0 c).arrAt_eq_of_cover 3 (layer (X m c) (Wt m c) (Bv m c)) (flushed_eq m c) (cover c)

/-! ## The host lines before the region -/

/-- The dequantized weights W(o, d): the palette read at each index word, a negative word first wrapped by 256. -/
def dequant (tbl : (⟨S256, .f32⟩ : BufTy).Contents (Elt Ideal)) (idx : (⟨S4096x4096, .i32⟩ : BufTy).Contents (Elt Ideal)) :
    (⟨S4096x4096, .f32⟩ : BufTy).Contents (Elt Ideal) :=
  Host.gather gather_S256_S4096x4096x1_S4096x4096_n_0_n_n_0_2_1 tbl
    (broadcastInDim S4096x4096x1 ![0, 1] bcast_S4096x4096_S4096x4096x1_0_1
      (select (cmpi .slt idx (broadcastInDim S4096x4096 ![] bcast_S_S4096x4096 (constantI S_ 32 0#32)))
        (addi idx (broadcastInDim S4096x4096 ![] bcast_S_S4096x4096 (constantI S_ 32 256#32))) idx))

theorem X_eq (c : Dev nD) :
    X m c = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v10) = _
  after_results
  rfl

theorem Wt_eq (c : Dev nD) :
    Wt m c = truncf (F := Ideal) .bf16 (transpose S4096x4096 [1, 0]
      (dequant (m ((c : Thread nD τ).loc main_arg1)) (m ((c : Thread nD τ).loc main_arg2))) transposes_S4096x4096_S4096x4096_1_0) bitsLt_bf16_f32 := by
  show StableHlo.after hostOps0 (fun b => m (c, b)) (Proc.devRef .tc main_v8) = _
  after_results
  rfl

theorem Bv_eq (c : Dev nD) :
    Bv m c = shapeCast S1x4096 (m ((c : Thread nD τ).loc main_arg3)) shapeCasts_S4096_S1x4096 := by
  show StableHlo.after hostOps0 (fun b => m (c, b)) (Proc.devRef .tc main_v11) = _
  after_results
  rfl

/-- Row b · 2048 + s of X is row (b, s) of the activations. -/
theorem X_apply (c : Dev nD) (b : Fin 4) (s : Fin 2048) (d : Fin 4096) (r : Fin 8192) (hr : r.val = b.val * 2048 + s.val) :
    X m c (ix2 r d) = m ((c : Thread nD τ).loc main_arg0) (ix3 b s d) := by
  rw [X_eq]
  show shapeCast S8192x4096 (m ((c : Thread nD τ).loc main_arg0)) shapeCasts_S4x2048x4096_S8192x4096 (ix2 r d) = _
  refine shapeCast_apply _ _ _ _ ?_
  show (S4x2048x4096.rowMajor (ix3 b s d)).val = (S8192x4096.rowMajor (ix2 r d)).val
  rw [Shape.rowMajor_val_three, Shape.rowMajor_val_two]
  show (b.val * 2048 + s.val) * 4096 + d.val = r.val * 4096 + d.val
  rw [hr]

/-- Wt(d, o) is W(o, d). -/
theorem Wt_apply (c : Dev nD) (d o : Fin 4096) :
    Wt m c (ix2 d o) = dequant (m ((c : Thread nD τ).loc main_arg1)) (m ((c : Thread nD τ).loc main_arg2)) (ix2 o d) := by
  rw [Wt_eq]
  show transpose S4096x4096 [1, 0] (dequant _ _) transposes_S4096x4096_S4096x4096_1_0 (ix2 d o) = _
  refine transpose_apply _ _ _ _ _ fun b => ?_
  match b with
  | ⟨0, _⟩ => rfl
  | ⟨1, _⟩ => rfl

/-- The bias row at column o is the bias vector at o. -/
theorem Bv_apply (c : Dev nD) (o : Fin 4096) :
    Bv m c (ix2 (0 : Fin 1) o) = m ((c : Thread nD τ).loc main_arg3) (ix1 o) := by
  rw [Bv_eq]
  exact shapeCast_a_1a_apply (a := 4096) _ _ 0 o

/-! ## The reshape after the region, and the whole result -/

/-- The layer's matrix reshaped to batch × sequence × features is the layer on the activations as given. -/
theorem value_eq (c : Dev nD) :
    shapeCast S4x2048x4096 (layer (X m c) (Wt m c) (Bv m c)) shapeCasts_S8192x4096_S4x2048x4096
      = dense (m ((c : Thread nD τ).loc main_arg0))
          (dequant (m ((c : Thread nD τ).loc main_arg1)) (m ((c : Thread nD τ).loc main_arg2)))
          (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [shapeCast_apply _ _ (ix3 b s o) (ix2 (⟨b.val * 2048 + s.val, by omega⟩ : Fin 8192) o)
    (by rw [Shape.rowMajor_val_two, Shape.rowMajor_val_three]; rfl), layer_apply, dense_apply]
  congr 1
  · refine Fintype.sum_congr _ _ fun d => ?_
    rw [X_apply m c b s d _ rfl, Wt_apply]
  · exact Bv_apply m c o

/-- The program's result after its last line. -/
theorem result_eq (c : Dev nD) :
    Pipeline.afterTail₀ cfgs (dats m) 0 (V0 m) [hostOps1] c main_v13
      = shapeCast S4x2048x4096 (layer (X m c) (Wt m c) (Bv m c)) shapeCasts_S8192x4096_S4x2048x4096 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12)
      = layer (X m c) (Wt m c) (Bv m c) :=
    (Pipeline.withArrays_arr spec0 launch0.win.arr_inj c _ _ 3).trans (final m c)
  rw [e]
  rfl

/-- THE RUN, READ: every weakly fair execution ends with the result at the layer of the arguments, the arguments
    unchanged. -/
theorem run : θ_run defs (onTc (τ := τ) (main (F := Ideal))) ⟨m, fun _ => 0, ρ⟩ fun r => ∀ c : Dev nD,
      r.2.mem ((c.tc : Thread nD τ).loc main_v13)
        = dense (m ((c.tc : Thread nD τ).loc main_arg0))
            (dequant (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v13 (Pipeline.mem_restRefs_of main_v13 (by decide) (by decide))).trans ((result_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference at the ideal values is the layer on the activations as given.

  The reference contracts the feature coordinate of the activations with the second coordinate of the dequantized
  weights W(o, d) and adds the bias broadcast over batch and sequence: at (b, s, o) it is
  Σ_d x(b, s, d) · W(o, d) + bias(o), which is  dense x W bias  read at that entry.
-/
import proofs.«145189_j51264729645537_1_alg».proof.Proof.Gen.ReferenceIdeal.Read
import proofs.«145189_j51264729645537_1_alg».proof.Proof.Layer

noncomputable section

open Idealize.ShloMosaic Idealize.ShloMosaic.ValueIdx

namespace Cert.ReferenceIdeal.RefValue

open Cert.ReferenceIdeal Cert.ReferenceIdeal.Gen Cert.ReferenceIdeal.Read Cert.PaletteLinear

/-- The contraction reads the activations along the feature coordinate … -/
theorem lidx_eq (b : Fin 4) (s : Fin 2048) (o k : Fin 4096) : lidx_main_v7 (ix3 b s o) k = ix3 b s k :=
  funext fun a => by
    match a with
    | ⟨0, _⟩ => rfl
    | ⟨1, _⟩ => rfl
    | ⟨2, _⟩ => rfl

/-- … and the weights along their second coordinate, in row o. -/
theorem ridx_eq (b : Fin 4) (s : Fin 2048) (o k : Fin 4096) : ridx_main_v7 (ix3 b s o) k = ix2 o k :=
  funext fun a => by
    match a with
    | ⟨0, _⟩ => rfl
    | ⟨1, _⟩ => rfl

/-- The broadcast bias reads the bias vector at the output feature. -/
theorem bidx_eq (b : Fin 4) (s : Fin 2048) (o : Fin 4096) : idx_main_v8 (idx_main_v9 (ix3 b s o)) = ix1 o :=
  funext fun a => by
    match a with
    | ⟨0, _⟩ => rfl

/-- The reference's result is  dense  of its arguments, over its own gather of the palette. -/
theorem result_eq (x0 : (⟨S4x2048x4096, .f32⟩ : BufTy).Contents (Elt Ideal)) (x1 : (⟨S256, .f32⟩ : BufTy).Contents (Elt Ideal))
    (x2 : (⟨S4096x4096, .i32⟩ : BufTy).Contents (Elt Ideal)) (x3 : (⟨S4096, .f32⟩ : BufTy).Contents (Elt Ideal)) :
    val_main_v10 (F := Ideal) x0 x1 x2 x3 = dense x0 (val_main_v6 (F := Ideal) x1 x2) x3 := by
  funext i
  obtain ⟨b, s, o, rfl⟩ : ∃ (b : Fin 4) (s : Fin 2048) (o : Fin 4096), i = ix3 b s o := ⟨i 0, i 1, i 2, eq_ix3 i⟩
  rw [val_main_v10_apply, val_main_v7_apply, val_main_v9_apply, val_main_v8_apply, bidx_eq, Ideal.addf_def, dense_apply]
  simp only [lidx_eq, ridx_eq]

end Cert.ReferenceIdeal.RefValue

end
-- ==== Proof.lean ====
/-
  A linear layer over a palettized weight matrix: the kernel against its reference, over the extended reals.

  Both programs dequantize the weights the same way (the palette read at each index word, a negative word first
  wrapped by 256) and then compute  Y(b, s, o) = Σ_d x(b, s, d) · W(o, d) + bias(o).  The reference does it in one
  contraction. The kernel reshapes the activations to 8192 rows, transposes the weights, and walks an 8 × 4 × 4 grid:
  for each 1024 × 1024 block of the result it adds up, in an accumulator carried across the four blocks of the
  contracted coordinate, the products of the matching input blocks, and with the last one stores the accumulator
  plus the bias row; the result is reshaped back to batch × sequence × features.

  At the ideal values a change of float format is the identity, and the four block sums are the one sum by
  commutativity and associativity of addition alone. So the two results are equal entry by entry for every input:
  the precondition is never opened.

  The frames of the two kernel programs are the generated ones; the reference's frame is its generated run with the
  result dropped. No operation was rewritten when the kernel was idealized, so the idealization claim is trivial.
-/
import proofs.«145189_j51264729645537_1_alg».proof.Defs
import proofs.«145189_j51264729645537_1_alg».proof.Proof.Gen.Kernel
import proofs.«145189_j51264729645537_1_alg».proof.Proof.Gen.Kernel.Skeleton
import proofs.«145189_j51264729645537_1_alg».proof.Proof.Gen.Kernel.Launch
import proofs.«145189_j51264729645537_1_alg».proof.Proof.Gen.Kernel.Points
import proofs.«145189_j51264729645537_1_alg».proof.Proof.Gen.Kernel.Frame
import proofs.«145189_j51264729645537_1_alg».proof.Proof.Gen.KernelIdeal
import proofs.«145189_j51264729645537_1_alg».proof.Proof.Gen.KernelIdeal.Skeleton
import proofs.«145189_j51264729645537_1_alg».proof.Proof.Gen.KernelIdeal.Launch
import proofs.«145189_j51264729645537_1_alg».proof.Proof.Gen.KernelIdeal.Points
import proofs.«145189_j51264729645537_1_alg».proof.Proof.Gen.KernelIdeal.Frame
import proofs.«145189_j51264729645537_1_alg».proof.Proof.Gen.ReferenceIdeal
import proofs.«145189_j51264729645537_1_alg».proof.Proof.Gen.ReferenceIdeal.Run
import proofs.«145189_j51264729645537_1_alg».proof.Proof.Gen.ReferenceIdeal.Read
import proofs.«145189_j51264729645537_1_alg».proof.Proof.Gen.Pre_finite_inputs
import proofs.«145189_j51264729645537_1_alg».proof.Proof.Result
import proofs.«145189_j51264729645537_1_alg».proof.Proof.RefValue
import Idealize.ShloMosaic.Adequacy
import Idealize.ShloMosaic.Init

noncomputable section

namespace Cert.Proof

open Idealize.ShloMosaic Idealize.SL.Sem Cert.PaletteLinear

/-- The two programs dequantize the weights by the same operations on the same arguments: one term. -/
theorem dequant_eq (x1 : (⟨Cert.ReferenceIdeal.S256, .f32⟩ : BufTy).Contents (Elt Ideal))
    (x2 : (⟨Cert.ReferenceIdeal.S4096x4096, .i32⟩ : BufTy).Contents (Elt Ideal)) :
    Cert.ReferenceIdeal.Read.val_main_v6 (F := Ideal) x1 x2 = Cert.KernelIdeal.Result.dequant x1 x2 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result is the layer of its arguments (the accumulator's invariant, the blocks'
    cover, the re-layings around the region) and the reference's is the layer of arguments that agree with them. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, dequant_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
